-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x32 : Shape := ⟨3, ![1, 8192, 32]⟩
abbrev S_ : Shape := ⟨0, ![]⟩

class Facts : Prop where
  bcast_S_S1x8192x32 : S_.BroadcastsInDim S1x8192x32 (![] : Fin 0 → Fin S1x8192x32.rank)
  reducesTo_S1x8192x32_S_d0_1_2 : S1x8192x32.ReducesTo [0, 1, 2] S_
  h_S_ : 0 < S_.numel

variable [Facts]

def fn {F : FTy → Type} [FloatOps F] (main_arg0 : FVec F S1x8192x32 .f32) (main_arg1 : FVec F S1x8192x32 .f32) : IVec S_ 1 :=
  let main_v0 : FVec F S1x8192x32 .f32 := Host.absf main_arg0
  let main_cst : FVec F S_ .f32 := constant S_ .f32 0x7F800000#32
  let main_v1 : FVec F S1x8192x32 .f32 := broadcastInDim S1x8192x32 ![] bcast_S_S1x8192x32 main_cst
  let main_v2 : IVec S1x8192x32 1 := cmpf .olt main_v0 main_v1
  let main_c : IVec S_ 1 := constantI S_ 1 1#1
  let main_v3 : IVec S_ 1 := (fun x v => Host.reduce IntOp.andi x v reducesTo_S1x8192x32_S_d0_1_2 h_S_) main_v2 main_c
  let main_v4 : FVec F S1x8192x32 .f32 := Host.absf main_arg1
  let main_cst_0 : FVec F S_ .f32 := constant S_ .f32 0x7F800000#32
  let main_v5 : FVec F S1x8192x32 .f32 := broadcastInDim S1x8192x32 ![] bcast_S_S1x8192x32 main_cst_0
  let main_v6 : IVec S1x8192x32 1 := cmpf .olt main_v4 main_v5
  let main_c_1 : IVec S_ 1 := constantI S_ 1 1#1
  let main_v7 : IVec S_ 1 := (fun x v => Host.reduce IntOp.andi x v reducesTo_S1x8192x32_S_d0_1_2 h_S_) main_v6 main_c_1
  let main_v8 : IVec S_ 1 := andi main_v3 main_v7
  main_v8
-- ==== Kernel.lean ====
abbrev S1x8192x32 : Shape := ⟨3, ![1, 8192, 32]⟩
abbrev S_ : Shape := ⟨0, ![]⟩
abbrev S1x8192 : Shape := ⟨2, ![1, 8192]⟩
abbrev S1x8192x1 : Shape := ⟨3, ![1, 8192, 1]⟩
abbrev S1x8192x33 : Shape := ⟨3, ![1, 8192, 33]⟩
abbrev S1x2048x32 : Shape := ⟨3, ![1, 2048, 32]⟩
abbrev S1x1024x32 : Shape := ⟨3, ![1, 1024, 32]⟩
abbrev S1x1024x33 : Shape := ⟨3, ![1, 1024, 33]⟩
abbrev S2048x33 : Shape := ⟨2, ![2048, 33]⟩
abbrev S2048x32 : Shape := ⟨2, ![2048, 32]⟩
abbrev S1024x32 : Shape := ⟨2, ![1024, 32]⟩
abbrev S1024x33 : Shape := ⟨2, ![1024, 33]⟩
abbrev S32x1024 : Shape := ⟨2, ![32, 1024]⟩
abbrev S2048x1024 : Shape := ⟨2, ![2048, 1024]⟩
abbrev S2048x1 : Shape := ⟨2, ![2048, 1]⟩

abbrev nBuf : Space → Nat
  | .hbm => 20
  | .vmem => 9
  | .smem => 0
  | _ => 0

abbrev bufTy : (tb : Table) → Fin (tcTables nBuf tb) → BufTy
  | .hbm, ⟨0, _⟩ => ⟨S1x8192x32, .f32⟩
  | .hbm, ⟨1, _⟩ => ⟨S1x8192x32, .f32⟩
  | .hbm, ⟨2, _⟩ => ⟨S_, .f32⟩
  | .hbm, ⟨3, _⟩ => ⟨S1x8192x32, .f32⟩
  | .hbm, ⟨4, _⟩ => ⟨S1x8192x32, .f32⟩
  | .hbm, ⟨5, _⟩ => ⟨S1x8192x32, .bf16⟩
  | .hbm, ⟨6, _⟩ => ⟨S1x8192x32, .bf16⟩
  | .hbm, ⟨7, _⟩ => ⟨S1x8192x32, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x32, .f32⟩
  | .hbm, ⟨16, _⟩ => ⟨S1x8192x32, .f32⟩
  | .hbm, ⟨17, _⟩ => ⟨S1x8192x33, .f32⟩
  | .hbm, ⟨18, _⟩ => ⟨S1x8192x33, .bf16⟩
  | .hbm, ⟨19, _⟩ => ⟨S1x8192x32, .f32⟩
  | .local _ .vmem, ⟨0, _⟩ => ⟨S1x2048x32, .bf16⟩
  | .local _ .vmem, ⟨1, _⟩ => ⟨S1x2048x32, .bf16⟩
  | .local _ .vmem, ⟨2, _⟩ => ⟨S1x1024x32, .bf16⟩
  | .local _ .vmem, ⟨3, _⟩ => ⟨S1x1024x32, .bf16⟩
  | .local _ .vmem, ⟨4, _⟩ => ⟨S1x1024x33, .bf16⟩
  | .local _ .vmem, ⟨5, _⟩ => ⟨S1x1024x33, .bf16⟩
  | .local _ .vmem, ⟨6, _⟩ => ⟨S1x2048x32, .f32⟩
  | .local _ .vmem, ⟨7, _⟩ => ⟨S1x2048x32, .f32⟩
  | .local _ .vmem, ⟨8, _⟩ => ⟨S2048x33, .f32⟩
  | _, _ => ⟨S1x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2048x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x33 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1x8192x32 : S_.BroadcastsInDim S1x8192x32 (![] : Fin 0 → Fin S1x8192x32.rank)
  bitsLt_bf16_f32 : FTy.bits .bf16 < FTy.bits .f32
  reducesTo_S1x8192x32_S1x8192_d2 : S1x8192x32.ReducesTo [2] S1x8192
  h_S_ : 0 < S_.numel
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1x8192x1_S1x8192x32_0_1_2 : S1x8192x1.BroadcastsInDim S1x8192x32 (![0, 1, 2] : Fin 3 → Fin S1x8192x32.rank)
  concatenates_S1x8192x32_S1x8192x1_S1x8192x33_d2 : Shape.Concatenates [S1x8192x32, S1x8192x1] S1x8192x33 2
  inb_S2048x33_S2048x33_0_0 : ∀ a, (![0, 0] : Fin 2 → Nat) a + S2048x33.size a ≤ S2048x33.size a
  h_S2048x33 : 0 < S2048x33.numel
  shapeCasts_S2048x33_S2048x33 : S2048x33.ShapeCasts S2048x33
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x1024x33_S1x1024x33_0_0_0 : ∀ a, (![0, 0, 0] : Fin 3 → Nat) a + S1x1024x33.size a ≤ S1x1024x33.size a
  h_S1x1024x33 : 0 < S1x1024x33.numel
  shapeCasts_S1x1024x33_S1024x33 : S1x1024x33.ShapeCasts S1024x33
  transposes_S1024x32_p1_0_S32x1024 : S1024x32.Transposes [1, 0] S32x1024
  slices_S2048x33_o0_0_S2048x32 : S2048x33.Slices ![0, 0] S2048x32
  slices_S2048x33_o0_32_S2048x1 : S2048x33.Slices ![0, 32] S2048x1
  broadcasts_S2048x1_S2048x32 : S2048x1.Broadcasts S2048x32
  shapeCasts_S2048x32_S1x2048x32 : S2048x32.ShapeCasts S1x2048x32
  dot_S2048x32_S32x1024_S2048x1024_1_0_0_1_n_n_wf : DotDims.WF S2048x32 S32x1024 S2048x1024 [1] [0] [0] [1] [] []
  dot_S2048x1024_S1024x33_S2048x33_1_0_0_1_n_n_wf : DotDims.WF S2048x1024 S1024x33 S2048x33 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x32.size a ≤ S1x8192x32.size a
  hwx0_0 : ∀ i : grid0.Coords, EltTy.bits .bf16 = 32 ∨ (Rect.block (s := S1x8192x32) S1x2048x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S1x8192x32.size a
  hwx0_1 : ∀ i : grid0.Coords, EltTy.bits .bf16 = 32 ∨ (Rect.block (s := S1x8192x32) S1x1024x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x33.size a ≤ S1x8192x33.size a
  hwx0_2 : ∀ i : grid0.Coords, EltTy.bits .bf16 = 32 ∨ (Rect.block (s := S1x8192x33) S1x1024x33.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x32.size a ≤ S1x8192x32.size a
  hwx0_3 : ∀ i : grid0.Coords, EltTy.bits .f32 = 32 ∨ (Rect.block (s := S1x8192x32) S1x2048x32.size (cc0_transform_3 i) (hinb0_3 i)).WholeWords (EltTy.packing .f32)

variable [Facts₀]

def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S2048x1024_S1024x33_S2048x33_1_0_0_1_n_n : DotDims S2048x1024 S1024x33 S2048x33 where
  lhsContracting := [1]
  rhsContracting := [0]
  lhsNonContracting := [0]
  rhsNonContracting := [1]
  lhsBatch := []
  rhsBatch := []
  wf := dot_S2048x1024_S1024x33_S2048x33_1_0_0_1_n_n_wf

abbrev win0_0 : Pipeline.Window sig grid0 :=
  Pipeline.Window.ofSpec (Memref.whole main_v2) S1x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x8192x32 : Shape := ⟨3, ![1, 8192, 32]⟩
abbrev S_ : Shape := ⟨0, ![]⟩
abbrev S1x8192 : Shape := ⟨2, ![1, 8192]⟩
abbrev S1x8192x8192 : Shape := ⟨3, ![1, 8192, 8192]⟩
abbrev S1x8192x1 : Shape := ⟨3, ![1, 8192, 1]⟩
abbrev S1x1x8192 : Shape := ⟨3, ![1, 1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x32, .f32⟩
  | .hbm, ⟨1, _⟩ => ⟨S1x8192x32, .f32⟩
  | .hbm, ⟨2, _⟩ => ⟨S1x8192x32, .f32⟩
  | .hbm, ⟨3, _⟩ => ⟨S_, .f32⟩
  | .hbm, ⟨4, _⟩ => ⟨S1x8192, .f32⟩
  | .hbm, ⟨5, _⟩ => ⟨S1x8192x32, .f32⟩
  | .hbm, ⟨6, _⟩ => ⟨S_, .f32⟩
  | .hbm, ⟨7, _⟩ => ⟨S1x8192, .f32⟩
  | .hbm, ⟨8, _⟩ => ⟨S1x8192x8192, .f32⟩
  | .hbm, ⟨9, _⟩ => ⟨S1x8192x1, .f32⟩
  | .hbm, ⟨10, _⟩ => ⟨S1x1x8192, .f32⟩
  | .hbm, ⟨11, _⟩ => ⟨S1x8192x8192, .f32⟩
  | .hbm, ⟨12, _⟩ => ⟨S1x8192x8192, .f32⟩
  | .hbm, ⟨13, _⟩ => ⟨S1x8192x8192, .f32⟩
  | .hbm, ⟨14, _⟩ => ⟨S_, .f32⟩
  | .hbm, ⟨15, _⟩ => ⟨S1x8192x8192, .f32⟩
  | .hbm, ⟨16, _⟩ => ⟨S1x8192x8192, .f32⟩
  | .hbm, ⟨17, _⟩ => ⟨S1x8192x8192, .f32⟩
  | .hbm, ⟨18, _⟩ => ⟨S_, .f32⟩
  | .hbm, ⟨19, _⟩ => ⟨S1x8192x8192, .f32⟩
  | .hbm, ⟨20, _⟩ => ⟨S1x8192x8192, .f32⟩
  | .hbm, ⟨21, _⟩ => ⟨S1x8192x8192, .f32⟩
  | .hbm, ⟨22, _⟩ => ⟨S1x8192x32, .f32⟩
  | .hbm, ⟨23, _⟩ => ⟨S_, .f32⟩
  | .hbm, ⟨24, _⟩ => ⟨S1x8192, .f32⟩
  | .hbm, ⟨25, _⟩ => ⟨S1x8192x1, .f32⟩
  | .hbm, ⟨26, _⟩ => ⟨S1x8192x32, .f32⟩
  | .hbm, ⟨27, _⟩ => ⟨S1x8192x32, .f32⟩
  | _, _ => ⟨S1x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S1x8192x32_S1x8192_d2 : S1x8192x32.ReducesTo [2] S1x8192
  h_S_ : 0 < S_.numel
  bcast_S1x8192_S1x8192x1_0_1 : S1x8192.BroadcastsInDim S1x8192x1 (![0, 1] : Fin 2 → Fin S1x8192x1.rank)
  bcast_S1x8192_S1x1x8192_0_2 : S1x8192.BroadcastsInDim S1x1x8192 (![0, 2] : Fin 2 → Fin S1x1x8192.rank)
  bcast_S1x8192x1_S1x8192x8192_0_1_2 : S1x8192x1.BroadcastsInDim S1x8192x8192 (![0, 1, 2] : Fin 3 → Fin S1x8192x8192.rank)
  bcast_S1x1x8192_S1x8192x8192_0_1_2 : S1x1x8192.BroadcastsInDim S1x8192x8192 (![0, 1, 2] : Fin 3 → Fin S1x8192x8192.rank)
  bcast_S_S1x8192x8192 : S_.BroadcastsInDim S1x8192x8192 (![] : Fin 0 → Fin S1x8192x8192.rank)
  reducesTo_S1x8192x8192_S1x8192_d2 : S1x8192x8192.ReducesTo [2] S1x8192
  bcast_S1x8192x1_S1x8192x32_0_1_2 : S1x8192x1.BroadcastsInDim S1x8192x32 (![0, 1, 2] : Fin 3 → Fin S1x8192x32.rank)
  dot_S1x8192x32_S1x8192x32_S1x8192x8192_2_2_1_1_0_0_wf : DotDims.WF S1x8192x32 S1x8192x32 S1x8192x8192 [2] [2] [1] [1] [0] [0]
  dot_S1x8192x8192_S1x8192x32_S1x8192x32_2_1_1_2_0_0_wf : DotDims.WF S1x8192x8192 S1x8192x32 S1x8192x32 [2] [1] [1] [2] [0] [0]

variable [Facts₀]

def dot_S1x8192x32_S1x8192x32_S1x8192x8192_2_2_1_1_0_0 : DotDims S1x8192x32 S1x8192x32 S1x8192x8192 where
  lhsContracting := [2]
  rhsContracting := [2]
  lhsNonContracting := [1]
  rhsNonContracting := [1]
  lhsBatch := [0]
  rhsBatch := [0]
  wf := dot_S1x8192x32_S1x8192x32_S1x8192x8192_2_2_1_1_0_0_wf
def dot_S1x8192x8192_S1x8192x32_S1x8192x32_2_1_1_2_0_0 : DotDims S1x8192x8192 S1x8192x32 S1x8192x32 where
  lhsContracting := [2]
  rhsContracting := [1]
  lhsNonContracting := [1]
  rhsNonContracting := [2]
  lhsBatch := [0]
  rhsBatch := [0]
  wf := dot_S1x8192x8192_S1x8192x32_S1x8192x32_2_1_1_2_0_0_wf

class Facts : Prop extends Facts₀ where

variable [Facts]
-- ==== Proof.GaussianWeights.lean ====
/-
  The mean-shift step over the reals, and the law that joins its two arrangements.

  For query rows p_n and reference rows r_j in ℝ³², the Gaussian weight of j for n is
  exp(-(|p_n|² + |r_j|² - 2 p_n·r_j)/128), and the shifted point is the weighted mean of the r_j.
  The weight splits as exp(-|p_n|²/128) · exp(-|r_j|²/128) · exp(p_n·r_j/64); the first factor is a
  positive real that does not depend on j, so it cancels between the weighted sum and the sum of the
  weights. What is left is the arrangement that scales the queries by 1/64 and weights each
  reference row by exp(-|r_j|²/128) beforehand.
-/
import Mathlib.Analysis.SpecialFunctions.Exp
import Mathlib.Algebra.BigOperators.Field

noncomputable section

namespace MeanShift

open scoped BigOperators

/-- 8192 rows of 32 reals. -/
abbrev Rows : Type := Fin 8192 → Fin 32 → ℝ

/-- The squared length of row j. -/
def sq (a : Rows) (j : Fin 8192) : ℝ := ∑ e : Fin 32, a j e * a j e

/-- The inner product of query row n and reference row j. -/
def dot (p r : Rows) (n j : Fin 8192) : ℝ := ∑ e : Fin 32, p n e * r j e

/-- The Gaussian weight of reference row j for query row n, bandwidth 8: exp(-|p_n - r_j|²/128) with the
    squared distance expanded. -/
def weight (p r : Rows) (n j : Fin 8192) : ℝ :=
  Real.exp (((sq p n + sq r j) - 2 * dot p r n j) * (-1 / 128))

/-- The shifted point: the weighted mean of the reference rows. -/
def shift (p r : Rows) (n : Fin 8192) (d : Fin 32) : ℝ :=
  (∑ j : Fin 8192, weight p r n j * r j d) / ∑ j : Fin 8192, weight p r n j

/-- The weight the second arrangement gives row j beforehand: exp(-|r_j|²/128). -/
def rowWeight (r : Rows) (j : Fin 8192) : ℝ := Real.exp (sq r j * (-1 / 128))

/-- What is left of the Gaussian weight once the factors of |p_n|² and |r_j|² are taken out: the exponential
    of the inner product of the query row scaled by 1/64 with the reference row. -/
def cross (p r : Rows) (n j : Fin 8192) : ℝ := Real.exp (∑ e : Fin 32, p n e * (1 / 64) * r j e)

theorem weight_split (p r : Rows) (n j : Fin 8192) :
    weight p r n j = Real.exp (sq p n * (-1 / 128)) * (cross p r n j * rowWeight r j) := by
  unfold weight cross rowWeight
  rw [← Real.exp_add, ← Real.exp_add]
  congr 1
  have h : (∑ e : Fin 32, p n e * (1 / 64) * r j e) = dot p r n j * (1 / 64) := by
    unfold dot
    rw [Finset.sum_mul]
    exact Finset.sum_congr rfl fun e _ => by ring
  rw [h]
  ring

/-- The second arrangement is the mean-shift step: the factor exp(-|p_n|²/128) cancels. -/
theorem shift_eq_prescaled (p r : Rows) (n : Fin 8192) (d : Fin 32) :
    (∑ j : Fin 8192, cross p r n j * (r j d * rowWeight r j)) / (∑ j : Fin 8192, cross p r n j * rowWeight r j)
      = shift p r n d := by
  unfold shift
  have hc : Real.exp (sq p n * (-1 / 128)) ≠ 0 := (Real.exp_pos _).ne'
  have hN : (∑ j : Fin 8192, weight p r n j * r j d)
      = Real.exp (sq p n * (-1 / 128)) * ∑ j : Fin 8192, cross p r n j * (r j d * rowWeight r j) := by
    rw [Finset.mul_sum]
    exact Finset.sum_congr rfl fun j _ => by rw [weight_split]; ring
  have hD : (∑ j : Fin 8192, weight p r n j)
      = Real.exp (sq p n * (-1 / 128)) * ∑ j : Fin 8192, cross p r n j * rowWeight r j := by
    rw [Finset.mul_sum]
    exact Finset.sum_congr rfl fun j _ => by rw [weight_split]
  rw [hN, hD, mul_div_mul_left _ _ hc]

/-- The sum of the weights is positive, so the quotient is an honest one. -/
theorem sum_weight_pos (p r : Rows) (n : Fin 8192) : 0 < ∑ j : Fin 8192, weight p r n j :=
  Finset.sum_pos (fun j _ => Real.exp_pos _) ⟨⟨0, by decide⟩, Finset.mem_univ _⟩

theorem sum_cross_pos (p r : Rows) (n : Fin 8192) : 0 < ∑ j : Fin 8192, cross p r n j * rowWeight r j :=
  Finset.sum_pos (fun j _ => mul_pos (Real.exp_pos _) (Real.exp_pos _)) ⟨⟨0, by decide⟩, Finset.mem_univ _⟩

end MeanShift

end
-- ==== Proof.ShiftArray.lean ====
/-
  The mean-shift step as an ARRAY of extended reals: a table of reals read as the [1, 8192, 32] array it
  denotes, the result array both programs are shown to end with, and the facts of extended-real arithmetic
  the two value proofs share — a finite sum of reals is the sum of their images, and the four float words the
  programs spell (0, 2, 1/64, -1/128) denote those numbers exactly (each is a power of two or zero).
-/
import proofs.«409553_j2370821947779_3_alg».proof.Proof.GaussianWeights
import Idealize.ShloMosaic.PureOps.Ideal
import Idealize.ShloMosaic.PureOps.Ideal.Laws
import Idealize.ShloMosaic.Lib.ValueIdx

noncomputable section

namespace MeanShift

open Idealize.ShloMosaic
open scoped BigOperators

/-- The shape of both arguments and of the result. -/
abbrev Arr : Shape := ⟨3, ![1, 8192, 32]⟩

/-- The row and the column of an index of the array (its leading coordinate is 0). -/
abbrev row (i : Arr.Idx) : Fin 8192 := ⟨(i 1).val, (i 1).isLt⟩
abbrev col (i : Arr.Idx) : Fin 32 := ⟨(i 2).val, (i 2).isLt⟩

/-- The array of extended reals a table of reals denotes. -/
def lift (a : Rows) : Arr.Idx → EReal := fun i => ((a (row i) (col i) : ℝ) : EReal)

theorem lift_apply (a : Rows) (i : Arr.Idx) : lift a i = ((a (row i) (col i) : ℝ) : EReal) := rfl

/-- THE RESULT: entry (0, n, d) is the d-th coordinate of the n-th shifted point. -/
def result (p r : Rows) : Arr.Idx → EReal := fun i => ((shift p r (row i) (col i) : ℝ) : EReal)

/-- A finite sum of reals, read in the extended reals, is the sum of the images. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The words the programs spell. -/
theorem word_zero : Ideal.ofBits .f32 0x00000000#32 = ((0 : ℝ) : EReal) := by
  rw [Ideal.ofBits_zero_f32]; rfl
theorem word_two : Ideal.ofBits .f32 0x40000000#32 = ((2 : ℝ) : EReal) := by
  simp [Ideal.ofBits, Ideal.ieee, -EReal.coe_mul]; norm_num
theorem word_inv64 : Ideal.ofBits .f32 0x3C800000#32 = ((1 / 64 : ℝ) : EReal) := by
  simp [Ideal.ofBits, Ideal.ieee, -EReal.coe_mul]; norm_num
theorem word_negInv128 : Ideal.ofBits .f32 0xBC000000#32 = ((-1 / 128 : ℝ) : EReal) := by
  simp [Ideal.ofBits, Ideal.ieee, -EReal.coe_mul]; norm_num

/-- A quotient of reals by a nonzero real, at the ideal values, is the real quotient. -/
theorem div_coe_coe (x y : ℝ) (hy : y ≠ 0) : Ideal.div (x : EReal) (y : EReal) = ((x / y : ℝ) : EReal) := by
  rw [Ideal.div_coe hy, ← EReal.coe_mul]
  congr 1
  ring

end MeanShift

end
-- ==== Proof.StagedArrays.lean ====
/-
  The three arrays the pallas_call stages, as functions of the two arguments.

  Before the call the program scales the query points by 1/64, keeps the reference rows as they are, and builds a
  [1, 8192, 33] array whose row j is the reference row r_j times w_j = exp((0 + Σ_d r_j[d]²) · (-1/128)) followed by
  w_j itself in column 32 (the changes of float format are the identity at the ideal values). Over tables of
  reals every entry is a real: p[n, d] / 64, r[j, d], and r[j, e] · w_j or w_j.
-/
import proofs.«409553_j2370821947779_3_alg».proof.Proof.ShiftArray
import proofs.«409553_j2370821947779_3_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open scoped BigOperators

namespace Cert.KernelIdeal.Shift

open Cert.KernelIdeal Cert.KernelIdeal.Gen MeanShift

/-- The query points scaled by the word of 1/64. -/
def scaledQueries (P : FVec Ideal S1x8192x32 .f32) : FVec Ideal S1x8192x32 .bf16 :=
  truncf .bf16 (mulf P (broadcastInDim S1x8192x32 ![] bcast_S_S1x8192x32 (constant (F := Ideal) S_ .f32 0x3C800000#32))) bitsLt_bf16_f32

/-- The reference rows, as staged. -/
def referenceRows (R : FVec Ideal S1x8192x32 .f32) : FVec Ideal S1x8192x32 .bf16 := truncf .bf16 R bitsLt_bf16_f32

/-- The column of row weights exp((0 + Σ_d r_j[d]²) · (-1/128)). -/
def rowWeights (R : FVec Ideal S1x8192x32 .f32) : FVec Ideal S1x8192x1 .f32 :=
  Host.exp (mulf
    (broadcastInDim S1x8192x1 ![0, 1] bcast_S1x8192_S1x8192x1_0_1
      (Host.reduceAdd (mulf R R) (constant (F := Ideal) S_ .f32 0x00000000#32) reducesTo_S1x8192x32_S1x8192_d2 h_S_))
    (broadcastInDim S1x8192x1 ![] bcast_S_S1x8192x1 (constant (F := Ideal) S_ .f32 0xBC000000#32)))

/-- The weighted reference rows with the weight appended as column 32. -/
def weightedRows (R : FVec Ideal S1x8192x32 .f32) : FVec Ideal S1x8192x33 .bf16 :=
  truncf .bf16
    (concatenate S1x8192x33 2
      [⟨S1x8192x32, mulf R (broadcastInDim S1x8192x32 ![0, 1, 2] bcast_S1x8192x1_S1x8192x32_0_1_2 (rowWeights R))⟩,
        ⟨S1x8192x1, rowWeights R⟩]
      concatenates_S1x8192x32_S1x8192x1_S1x8192x33_d2)
    bitsLt_bf16_f32

/-! ## What the region finds -/

section Found
variable (m : (ℓ : Loc nD τ sig) → Buf (Elt Ideal) ℓ)

theorem found_queries (c : Dev nD) :
    (V m c main_v2 : S1x8192x32.Idx → EReal) = scaledQueries (m ((c : Thread nD τ).loc main_arg0)) := by
  dsimp only [V, hostOps0]; after_results; rfl

theorem found_references (c : Dev nD) :
    (V m c main_v3 : S1x8192x32.Idx → EReal) = referenceRows (m ((c : Thread nD τ).loc main_arg1)) := by
  dsimp only [V, hostOps0]; after_results; rfl

theorem found_weighted (c : Dev nD) :
    (V m c main_v13 : S1x8192x33.Idx → EReal) = weightedRows (m ((c : Thread nD τ).loc main_arg1)) := by
  dsimp only [V, hostOps0]; after_results; rfl

end Found

/-! ## Their entries over tables of reals -/

theorem scaledQueries_apply (p : Rows) (n : Fin 8192) (d : Fin 32) :
    scaledQueries (lift p) (ix3 (0 : Fin 1) n d) = ((p n d * (1 / 64) : ℝ) : EReal) := by
  unfold scaledQueries
  rw [truncf_apply, mulf_apply, broadcastInDim_apply _ bcast_S_S1x8192x32 _ _ ix0 (fun a => a.elim0), constant_apply,
    word_inv64, lift_apply, ← EReal.coe_mul]

theorem referenceRows_apply (r : Rows) (j : Fin 8192) (d : Fin 32) :
    referenceRows (lift r) (ix3 (0 : Fin 1) j d) = ((r j d : ℝ) : EReal) := by
  unfold referenceRows
  rw [truncf_apply, lift_apply]

/-- The weight of row j is the real exp(-|r_j|²/128). -/
theorem rowWeights_apply (r : Rows) (j : Fin 8192) :
    rowWeights (lift r) (ix3 (0 : Fin 1) j (0 : Fin 1)) = ((rowWeight r j : ℝ) : EReal) := by
  have hsq : Host.reduceAdd (mulf (lift r) (lift r)) (constant (F := Ideal) S_ .f32 0x00000000#32)
      reducesTo_S1x8192x32_S1x8192_d2 h_S_ (ix2 (0 : Fin 1) j) = ((sq r j : ℝ) : EReal) := by
    simp only [Host.reduceAdd, Ideal.hostReduceAdd_def]
    rw [Ideal.hostReduceAdd_single reducesTo_S1x8192x32_S1x8192_d2 (by decide)]
    rw [constant_apply, word_zero, EReal.coe_zero, zero_add]
    unfold MeanShift.sq
    rw [coe_sum]
    refine Finset.sum_congr rfl fun k _ => ?_
    rw [mulf_apply, lift_apply, ← EReal.coe_mul]
    rfl
  unfold rowWeights
  rw [show ∀ (X : FVec Ideal S1x8192x1 .f32) (i : S1x8192x1.Idx), Host.exp X i = Ideal.exp (X i) from fun _ _ => rfl,
    mulf_apply,
    broadcastInDim_apply _ bcast_S1x8192_S1x8192x1_0_1 _ _ (ix2 (0 : Fin 1) j) (fun a => by
      match a with
      | ⟨0, _⟩ => show 0 = if (1 : Nat) = 1 then 0 else 0; rw [if_pos rfl]
      | ⟨1, _⟩ => show j.val = if (8192 : Nat) = 1 then 0 else j.val; rw [if_neg (by decide)]),
    broadcastInDim_apply _ bcast_S_S1x8192x1 _ _ ix0 (fun a => a.elim0), constant_apply, word_negInv128, hsq,
    ← EReal.coe_mul, Ideal.exp_coe]
  rfl

/-- Row j of the staged [1, 8192, 33] array over a table of reals: the weighted row, then the weight. -/
def augmented (r : Rows) (j : Fin 8192) (e : Fin 33) : ℝ :=
  if h : e.val < 32 then r j ⟨e.val, h⟩ * rowWeight r j else rowWeight r j

theorem weightedRows_apply (r : Rows) (j : Fin 8192) (e : Fin 33) :
    weightedRows (lift r) (ix3 (0 : Fin 1) j e) = ((augmented r j e : ℝ) : EReal) := by
  unfold weightedRows augmented
  rw [truncf_apply]
  by_cases h : e.val < 32
  · rw [dif_pos h,
      concatenate_pair_apply_left (t := S1x8192x33) (s₁ := S1x8192x32) (s₂ := S1x8192x1) (2 : Fin 3) _ _
        concatenates_S1x8192x32_S1x8192x1_S1x8192x33_d2 (ix3 (0 : Fin 1) j e) rfl
        (ix3 (0 : Fin 1) j (⟨e.val, h⟩ : Fin 32)) (fun b => by
          match b with
          | ⟨0, _⟩ => rfl
          | ⟨1, _⟩ => rfl
          | ⟨2, _⟩ => rfl),
      mulf_apply,
      broadcastInDim_apply _ bcast_S1x8192x1_S1x8192x32_0_1_2 _ _ (ix3 (0 : Fin 1) j (0 : Fin 1)) (fun a => by
        match a with
        | ⟨0, _⟩ => show 0 = if (1 : Nat) = 1 then 0 else 0; rw [if_pos rfl]
        | ⟨1, _⟩ => show j.val = if (8192 : Nat) = 1 then 0 else j.val; rw [if_neg (by decide)]
        | ⟨2, _⟩ => show 0 = if (1 : Nat) = 1 then 0 else e.val; rw [if_pos rfl]),
      rowWeights_apply, lift_apply, ← EReal.coe_mul]
  · rw [dif_neg h,
      concatenate_pair_apply_right (t := S1x8192x33) (s₁ := S1x8192x32) (s₂ := S1x8192x1) (2 : Fin 3) _ _
        concatenates_S1x8192x32_S1x8192x1_S1x8192x33_d2 (ix3 (0 : Fin 1) j e) rfl rfl
        (ix3 (0 : Fin 1) j (0 : Fin 1)) (fun b hb => by
          match b with
          | ⟨0, _⟩ => rfl
          | ⟨1, _⟩ => rfl
          | ⟨2, _⟩ => exact absurd rfl hb)
        (by show 0 + 32 = e.val; have := e.isLt; omega),
      rowWeights_apply]

end Cert.KernelIdeal.Shift

end
-- ==== Proof.TileProduct.lean ====
/-
  The body's arithmetic at an index, at the ideal values.

  One grid point adds to the accumulator, at row r and column e, the sum over the tile's 1024 reference rows j of
  exp(Σ_d x[r, d] · y[j, d]) · z[j, e], where x is the block of (scaled) query rows, y the tile of reference rows
  and z the tile of weighted reference rows with the weight appended as column 32: the first matrix product is against
  the transposed tile, the exponential is taken entry by entry, the second product is into the zero block, and the
  changes of float format are the identity. The last point divides the accumulator's first 32 columns by its column 32.
-/
import proofs.«409553_j2370821947779_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Shift

open Cert.KernelIdeal Cert.KernelIdeal.Gen

/-! ## The two contractions' operand indices -/

theorem lhs1_0 (i : S2048x1024.Idx) (q : dot_S2048x32_S32x1024_S2048x1024_1_0_0_1_n_n.contr.Idx) : (dot_S2048x32_S32x1024_S2048x1024_1_0_0_1_n_n.lhsIdx i q 0).val = (i 0).val := by
  unfold DotDims.lhsIdx
  rw [dif_neg (show ¬(0 : Fin S2048x32.rank) ∈ dot_S2048x32_S32x1024_S2048x1024_1_0_0_1_n_n.lhsBatch by decide), dif_pos (show (0 : Fin S2048x32.rank) ∈ dot_S2048x32_S32x1024_S2048x1024_1_0_0_1_n_n.lhsNonContracting by decide)]
  rfl
theorem lhs1_1 (i : S2048x1024.Idx) (q : dot_S2048x32_S32x1024_S2048x1024_1_0_0_1_n_n.contr.Idx) : (dot_S2048x32_S32x1024_S2048x1024_1_0_0_1_n_n.lhsIdx i q 1).val = (q ⟨0, by decide⟩).val :=
  dot_S2048x32_S32x1024_S2048x1024_1_0_0_1_n_n.lhsIdx_val_of_single rfl i q
theorem rhs1_0 (i : S2048x1024.Idx) (q : dot_S2048x32_S32x1024_S2048x1024_1_0_0_1_n_n.contr.Idx) : (dot_S2048x32_S32x1024_S2048x1024_1_0_0_1_n_n.rhsIdx i q 0).val = (q ⟨0, by decide⟩).val :=
  dot_S2048x32_S32x1024_S2048x1024_1_0_0_1_n_n.rhsIdx_val_of_single rfl i q
theorem rhs1_1 (i : S2048x1024.Idx) (q : dot_S2048x32_S32x1024_S2048x1024_1_0_0_1_n_n.contr.Idx) : (dot_S2048x32_S32x1024_S2048x1024_1_0_0_1_n_n.rhsIdx i q 1).val = (i 1).val := by
  unfold DotDims.rhsIdx
  rw [dif_neg (show ¬(1 : Fin S32x1024.rank) ∈ dot_S2048x32_S32x1024_S2048x1024_1_0_0_1_n_n.rhsBatch by decide), dif_pos (show (1 : Fin S32x1024.rank) ∈ dot_S2048x32_S32x1024_S2048x1024_1_0_0_1_n_n.rhsNonContracting by decide)]
  rfl

theorem lhs2_0 (i : S2048x33.Idx) (q : dot_S2048x1024_S1024x33_S2048x33_1_0_0_1_n_n.contr.Idx) : (dot_S2048x1024_S1024x33_S2048x33_1_0_0_1_n_n.lhsIdx i q 0).val = (i 0).val := by
  unfold DotDims.lhsIdx
  rw [dif_neg (show ¬(0 : Fin S2048x1024.rank) ∈ dot_S2048x1024_S1024x33_S2048x33_1_0_0_1_n_n.lhsBatch by decide), dif_pos (show (0 : Fin S2048x1024.rank) ∈ dot_S2048x1024_S1024x33_S2048x33_1_0_0_1_n_n.lhsNonContracting by decide)]
  rfl
theorem lhs2_1 (i : S2048x33.Idx) (q : dot_S2048x1024_S1024x33_S2048x33_1_0_0_1_n_n.contr.Idx) : (dot_S2048x1024_S1024x33_S2048x33_1_0_0_1_n_n.lhsIdx i q 1).val = (q ⟨0, by decide⟩).val :=
  dot_S2048x1024_S1024x33_S2048x33_1_0_0_1_n_n.lhsIdx_val_of_single rfl i q
theorem rhs2_0 (i : S2048x33.Idx) (q : dot_S2048x1024_S1024x33_S2048x33_1_0_0_1_n_n.contr.Idx) : (dot_S2048x1024_S1024x33_S2048x33_1_0_0_1_n_n.rhsIdx i q 0).val = (q ⟨0, by decide⟩).val :=
  dot_S2048x1024_S1024x33_S2048x33_1_0_0_1_n_n.rhsIdx_val_of_single rfl i q
theorem rhs2_1 (i : S2048x33.Idx) (q : dot_S2048x1024_S1024x33_S2048x33_1_0_0_1_n_n.contr.Idx) : (dot_S2048x1024_S1024x33_S2048x33_1_0_0_1_n_n.rhsIdx i q 1).val = (i 1).val := by
  unfold DotDims.rhsIdx
  rw [dif_neg (show ¬(1 : Fin S1024x33.rank) ∈ dot_S2048x1024_S1024x33_S2048x33_1_0_0_1_n_n.rhsBatch by decide), dif_pos (show (1 : Fin S1024x33.rank) ∈ dot_S2048x1024_S1024x33_S2048x33_1_0_0_1_n_n.rhsNonContracting by decide)]
  rfl

/-! ## The two products read at an index -/

/-- A [2048, 32] × [32, 1024] matrix product into the zero block, read at (r, c): the sum over the 32 contracted
    coordinates of the row's entry times the column's. -/
theorem product1_apply (a : FVec Ideal S2048x32 .bf16) (b : FVec Ideal S32x1024 .bf16) (r : Fin 2048) (c : Fin 1024) :
    matmul dot_S2048x32_S32x1024_S2048x1024_1_0_0_1_n_n none a b (constant (F := Ideal) S2048x1024 .f32 0x00000000#32) (ix2 r c) = ∑ k : Fin 32, a (ix2 r k) * b (ix2 k c) := by
  simp only [matmul]
  rw [Ideal.matmul_constant_zero_apply, ← Equiv.sum_comp (ValueIdx.contrEquiv1 dot_S2048x32_S32x1024_S2048x1024_1_0_0_1_n_n 32 rfl rfl).symm]
  refine Finset.sum_congr rfl fun k _ => ?_
  have hk := ValueIdx.contrEquiv1_symm_val dot_S2048x32_S32x1024_S2048x1024_1_0_0_1_n_n 32 rfl rfl k
  have el : dot_S2048x32_S32x1024_S2048x1024_1_0_0_1_n_n.lhsIdx (ix2 r c) ((ValueIdx.contrEquiv1 dot_S2048x32_S32x1024_S2048x1024_1_0_0_1_n_n 32 rfl rfl).symm k) = ix2 r k := funext fun ax => Fin.ext (by
    match ax with
    | ⟨0, _⟩ => exact lhs1_0 _ _
    | ⟨1, _⟩ => exact (lhs1_1 _ _).trans hk)
  have er : dot_S2048x32_S32x1024_S2048x1024_1_0_0_1_n_n.rhsIdx (ix2 r c) ((ValueIdx.contrEquiv1 dot_S2048x32_S32x1024_S2048x1024_1_0_0_1_n_n 32 rfl rfl).symm k) = ix2 k c := funext fun ax => Fin.ext (by
    match ax with
    | ⟨0, _⟩ => exact (rhs1_0 _ _).trans hk
    | ⟨1, _⟩ => exact rhs1_1 _ _)
  rw [el, er]

/-- A [2048, 1024] × [1024, 33] matrix product into the zero block, read at (r, c): the sum over the 1024 contracted
    coordinates of the row's entry times the column's. -/
theorem product2_apply (a : FVec Ideal S2048x1024 .bf16) (b : FVec Ideal S1024x33 .bf16) (r : Fin 2048) (c : Fin 33) :
    matmul dot_S2048x1024_S1024x33_S2048x33_1_0_0_1_n_n none a b (constant (F := Ideal) S2048x33 .f32 0x00000000#32) (ix2 r c) = ∑ k : Fin 1024, a (ix2 r k) * b (ix2 k c) := by
  simp only [matmul]
  rw [Ideal.matmul_constant_zero_apply, ← Equiv.sum_comp (ValueIdx.contrEquiv1 dot_S2048x1024_S1024x33_S2048x33_1_0_0_1_n_n 1024 rfl rfl).symm]
  refine Finset.sum_congr rfl fun k _ => ?_
  have hk := ValueIdx.contrEquiv1_symm_val dot_S2048x1024_S1024x33_S2048x33_1_0_0_1_n_n 1024 rfl rfl k
  have el : dot_S2048x1024_S1024x33_S2048x33_1_0_0_1_n_n.lhsIdx (ix2 r c) ((ValueIdx.contrEquiv1 dot_S2048x1024_S1024x33_S2048x33_1_0_0_1_n_n 1024 rfl rfl).symm k) = ix2 r k := funext fun ax => Fin.ext (by
    match ax with
    | ⟨0, _⟩ => exact lhs2_0 _ _
    | ⟨1, _⟩ => exact (lhs2_1 _ _).trans hk)
  have er : dot_S2048x1024_S1024x33_S2048x33_1_0_0_1_n_n.rhsIdx (ix2 r c) ((ValueIdx.contrEquiv1 dot_S2048x1024_S1024x33_S2048x33_1_0_0_1_n_n 1024 rfl rfl).symm k) = ix2 k c := funext fun ax => Fin.ext (by
    match ax with
    | ⟨0, _⟩ => exact (rhs2_0 _ _).trans hk
    | ⟨1, _⟩ => exact rhs2_1 _ _)
  rw [el, er]

/-- What one point adds to the accumulator at row r, column e. -/
def tileTerm (x0 : FVec Ideal S1x2048x32 .bf16) (x1 : FVec Ideal S1x1024x32 .bf16) (x2 : FVec Ideal S1x1024x33 .bf16)
    (r : Fin 2048) (e : Fin 33) : EReal :=
  ∑ j : Fin 1024, Ideal.exp (∑ d : Fin 32, x0 (ix3 (0 : Fin 1) r d) * x1 (ix3 (0 : Fin 1) j d)) * x2 (ix3 (0 : Fin 1) j e)

/-- The update: the accumulator's entry plus the point's term. -/
theorem update_apply (x0 : FVec Ideal S1x2048x32 .bf16) (x1 : FVec Ideal S1x1024x32 .bf16) (x2 : FVec Ideal S1x1024x33 .bf16)
    (acc : FVec Ideal S2048x33 .f32) (r : Fin 2048) (e : Fin 33) :
    k0_pay2 (F := Ideal) x0 x1 x2 acc (ix2 r e) = acc (ix2 r e) + tileTerm x0 x1 x2 r e := by
  unfold k0_pay2 tileTerm
  simp only [shapeCast_self]
  rw [addf_apply, product2_apply]
  refine congrArg (acc (ix2 r e) + ·) (Finset.sum_congr rfl fun j _ => ?_)
  rw [truncf_apply, shapeCast_1ab_ab_apply]
  refine congrArg (· * x2 (ix3 (0 : Fin 1) j e)) ?_
  show Ideal.exp (matmul dot_S2048x32_S32x1024_S2048x1024_1_0_0_1_n_n none _ _ (constant (F := Ideal) S2048x1024 .f32 0x00000000#32) (ix2 r j)) = _
  rw [product1_apply]
  refine congrArg Ideal.exp (Finset.sum_congr rfl fun d _ => ?_)
  rw [shapeCast_1ab_ab_apply, transpose_ix2_apply, shapeCast_1ab_ab_apply]

/-- The reset stores the zero block. -/
theorem reset_apply (y : S2048x33.Idx) : k0_pay1 (F := Ideal) y = 0 := by
  unfold k0_pay1
  simp only [shapeCast_self]
  exact Ideal.ofBits_zero_f32

/-- A [2048, 1] column broadcast along the rows reads, at (r, d), the column at r. -/
theorem column_broadcast_apply (v : FVec Ideal S2048x1 .f32) (h : S2048x1.Broadcasts S2048x32) (r : Fin 2048) (d : Fin 32) :
    broadcastTo S2048x32 v h (ix2 r d) = v (ix2 r (0 : Fin 1)) :=
  broadcastTo_apply v h (ix2 r d) (ix2 r (0 : Fin 1)) fun ax => by
    match ax with
    | ⟨0, _⟩ => show r.val = if (2048 : Nat) = 1 then 0 else r.val; rw [if_neg (by decide)]
    | ⟨1, _⟩ => show 0 = if (1 : Nat) = 1 then 0 else d.val; rw [if_pos rfl]

/-- The last point's store: entry (0, r, d) of the output block is the accumulator's entry (r, d) divided by its
    entry (r, 32). -/
theorem quotient_apply (v : FVec Ideal S2048x33 .f32) (r : Fin 2048) (d : Fin 32) :
    k0_pay3 (F := Ideal) v (ix3 (0 : Fin 1) r d)
      = Ideal.div (v (ix2 r (⟨d.val, by omega⟩ : Fin 33))) (v (ix2 r (⟨32, by decide⟩ : Fin 33))) := by
  unfold k0_pay3
  rw [shapeCast_ab_1ab_apply, divf_apply, column_broadcast_apply,
    slice2_axis1_apply 0 v _ r d (⟨d.val, by omega⟩ : Fin 33) (Nat.zero_add _).symm,
    slice2_axis1_apply 32 v _ r (0 : Fin 1) (⟨32, by decide⟩ : Fin 33) rfl]

end Cert.KernelIdeal.Shift

end
-- ==== Proof.TileBlocks.lean ====
/-
  The blocks the grid walks through, and one point's term over tables of reals.

  Point t = 8 i + k of the 4 × 8 grid stages rows 2048 i … 2048 i + 2047 of the scaled queries and rows
  1024 k … 1024 k + 1023 of the reference rows and of the weighted rows. So what the point adds to the accumulator
  at row ρ, column e is the sum over the tile's rows j' of exp(p_n · r_j / 64) times entry e of the weighted row
  j, with n = 2048 i + ρ and j = 1024 k + j'.
-/
import proofs.«409553_j2370821947779_3_alg».proof.Proof.StagedArrays
import proofs.«409553_j2370821947779_3_alg».proof.Proof.TileProduct
import proofs.«409553_j2370821947779_3_alg».proof.Proof.Gen.KernelIdeal.Frame

noncomputable section

open Idealize.ShloMosaic Idealize.ShloMosaic.TcCoe Idealize.SL.Sem Idealize.ShloMosaic.ValueIdx
open scoped BigOperators

namespace Cert.KernelIdeal.Shift

open Cert.KernelIdeal Cert.KernelIdeal.Gen MeanShift

variable (m : (ℓ : Loc nD τ sig) → Buf (Elt Ideal) ℓ)

/-- The printed index maps, decided over the grid: the query and output windows move with t / 8, the two reference
    windows with t mod 8, and nothing moves on the other axes. -/
theorem index_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 3) = 0 ∧ win0_2.index t (1 : Fin 3) = t.val % 8 ∧ win0_2.index t (2 : Fin 3) = 0
    ∧ win0_3.index t (0 : Fin 3) = 0 ∧ win0_3.index t (1 : Fin 3) = t.val / 8 ∧ win0_3.index t (2 : Fin 3) = 0 :=
  (by decide +kernel : ∀ t : Fin grid0.N, _)

/-- The query block at point t, at (0, ρ, d), is the staged query array at row 2048 (t / 8) + ρ. -/
theorem queryBlock_apply (c : Dev nD) (t : Fin cfg0.N) (ρ : Fin 2048) (d : Fin 32) (n : Fin 8192)
    (hn : n.val = 2048 * (t.val / 8) + ρ.val) :
    (iblk m c 0 t : FVec Ideal S1x2048x32 .bf16) (ix3 (0 : Fin 1) ρ d)
      = (V m c main_v2 : S1x8192x32.Idx → EReal) (ix3 (0 : Fin 1) n d) := by
  obtain ⟨e0, e1, e2, -⟩ := index_facts t
  unfold iblk
  rw [View.read_apply]
  show (V m c main_v2 : S1x8192x32.Idx → EReal) _ = _
  congr 1
  funext a
  apply Fin.ext
  match a with
  | ⟨0, _⟩ => show win0_0.index t (0 : Fin 3) * 1 + 1 * 0 = 0; rw [e0]
  | ⟨1, _⟩ => show win0_0.index t (1 : Fin 3) * 2048 + 1 * ρ.val = n.val; rw [e1, hn]; omega
  | ⟨2, _⟩ => show win0_0.index t (2 : Fin 3) * 32 + 1 * d.val = d.val; rw [e2]; omega

/-- The reference block at point t, at (0, j', d), is the staged reference array at row 1024 (t mod 8) + j'. -/
theorem referenceBlock_apply (c : Dev nD) (t : Fin cfg0.N) (j' : Fin 1024) (d : Fin 32) (j : Fin 8192)
    (hj : j.val = 1024 * (t.val % 8) + j'.val) :
    (iblk m c 1 t : FVec Ideal S1x1024x32 .bf16) (ix3 (0 : Fin 1) j' d)
      = (V m c main_v3 : S1x8192x32.Idx → EReal) (ix3 (0 : Fin 1) j d) := by
  obtain ⟨-, -, -, e0, e1, e2, -⟩ := index_facts t
  unfold iblk
  rw [View.read_apply]
  show (V m c main_v3 : S1x8192x32.Idx → EReal) _ = _
  congr 1
  funext a
  apply Fin.ext
  match a with
  | ⟨0, _⟩ => show win0_1.index t (0 : Fin 3) * 1 + 1 * 0 = 0; rw [e0]
  | ⟨1, _⟩ => show win0_1.index t (1 : Fin 3) * 1024 + 1 * j'.val = j.val; rw [e1, hj]; omega
  | ⟨2, _⟩ => show win0_1.index t (2 : Fin 3) * 32 + 1 * d.val = d.val; rw [e2]; omega

/-- The weighted block at point t, at (0, j', e), is the staged weighted array at row 1024 (t mod 8) + j'. -/
theorem weightedBlock_apply (c : Dev nD) (t : Fin cfg0.N) (j' : Fin 1024) (e : Fin 33) (j : Fin 8192)
    (hj : j.val = 1024 * (t.val % 8) + j'.val) :
    (iblk m c 2 t : FVec Ideal S1x1024x33 .bf16) (ix3 (0 : Fin 1) j' e)
      = (V m c main_v13 : S1x8192x33.Idx → EReal) (ix3 (0 : Fin 1) j e) := by
  obtain ⟨-, -, -, -, -, -, e0, e1, e2, -⟩ := index_facts t
  unfold iblk
  rw [View.read_apply]
  show (V m c main_v13 : S1x8192x33.Idx → EReal) _ = _
  congr 1
  funext a
  apply Fin.ext
  match a with
  | ⟨0, _⟩ => show win0_2.index t (0 : Fin 3) * 1 + 1 * 0 = 0; rw [e0]
  | ⟨1, _⟩ => show win0_2.index t (1 : Fin 3) * 1024 + 1 * j'.val = j.val; rw [e1, hj]; omega
  | ⟨2, _⟩ => show win0_2.index t (2 : Fin 3) * 33 + 1 * e.val = e.val; rw [e2]; omega

/-! ## One point's term over tables of reals -/

/-- The query row that row ρ of point n's block is (for the 32 points of the grid; the residue keeps the definition
    total). -/
def queryRow (n : ℕ) (ρ : Fin 2048) : Fin 8192 := ⟨(2048 * (n / 8) + ρ.val) % 8192, Nat.mod_lt _ (by decide)⟩

/-- The reference row that row j' of point n's tile is. -/
def tileRow (n : ℕ) (j' : Fin 1024) : Fin 8192 := ⟨(1024 * (n % 8) + j'.val) % 8192, Nat.mod_lt _ (by decide)⟩

theorem queryRow_val (n : ℕ) (hn : n < 32) (ρ : Fin 2048) : (queryRow n ρ).val = 2048 * (n / 8) + ρ.val := by
  show (2048 * (n / 8) + ρ.val) % 8192 = _
  have := ρ.isLt
  exact Nat.mod_eq_of_lt (by omega)

theorem tileRow_val (n : ℕ) (j' : Fin 1024) : (tileRow n j').val = 1024 * (n % 8) + j'.val := by
  show (1024 * (n % 8) + j'.val) % 8192 = _
  have := j'.isLt
  have := Nat.mod_lt n (show 0 < 8 by decide)
  exact Nat.mod_eq_of_lt (by omega)

/-- What point n adds to the accumulator at row ρ, column e, as a real. -/
def addend (p r : Rows) (n : ℕ) (ρ : Fin 2048) (e : Fin 33) : ℝ :=
  ∑ j' : Fin 1024, cross p r (queryRow n ρ) (tileRow n j') * augmented r (tileRow n j') e

/-- The point's term, on arguments that are tables of reals, is that real. -/
theorem tileTerm_real (c : Dev nD) (p r : Rows) (hp : m ((c : Thread nD τ).loc main_arg0) = lift p)
    (hr : m ((c : Thread nD τ).loc main_arg1) = lift r) (t : Fin cfg0.N) (ρ : Fin 2048) (e : Fin 33) :
    tileTerm (iblk m c 0 t : FVec Ideal S1x2048x32 .bf16) (iblk m c 1 t : FVec Ideal S1x1024x32 .bf16)
        (iblk m c 2 t : FVec Ideal S1x1024x33 .bf16) ρ e
      = ((addend p r t.val ρ e : ℝ) : EReal) := by
  have hN : t.val < 32 := lt_of_lt_of_eq t.isLt (show cfg0.N = 32 from N_0)
  unfold tileTerm addend
  rw [coe_sum]
  refine Finset.sum_congr rfl fun j' _ => ?_
  rw [weightedBlock_apply m c t j' e (tileRow t.val j') (tileRow_val _ _), found_weighted, hr, weightedRows_apply,
    EReal.coe_mul]
  refine congrArg (· * ((augmented r (tileRow t.val j') e : ℝ) : EReal)) ?_
  unfold cross
  rw [← Ideal.exp_coe, coe_sum]
  refine congrArg Ideal.exp (Finset.sum_congr rfl fun d _ => ?_)
  rw [queryBlock_apply m c t ρ d (queryRow t.val ρ) (queryRow_val _ hN _), found_queries, hp, scaledQueries_apply,
    referenceBlock_apply m c t j' d (tileRow t.val j') (tileRow_val _ _), found_references, hr, referenceRows_apply,
    ← EReal.coe_mul]

end Cert.KernelIdeal.Shift

end
-- ==== Proof.CasePieces.lean ====
/-
  What one grid point leaves behind, case by case, as a value.

  The body at point (i, k) adds to the accumulator, a [2048, 33] scratch that lives across the k axis, the
  product of the tile of exponentials with the k-th tile of weighted reference rows. At k = 0 it first stores the
  zero block and reads it back, so it leaves 0 + (the product); at 0 < k it leaves (what the point before left) +
  (the product); at k = 7 it also reads the accumulator back and stores, into the output block, its first 32
  columns divided by its last column.
-/
import proofs.«409553_j2370821947779_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Shift

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At k = 0 the accumulator is left at the zero block plus the point's product. -/
theorem scratch_first (c : Dev nD) (i : grid0.Coords) (arg2 : Memref sig .tc .vmem S1x2048x32 .bf16) (harg2 : arg2.IsWhole) (arg3 : Memref sig .tc .vmem S1x1024x32 .bf16) (harg3 : arg3.IsWhole) (arg4 : Memref sig .tc .vmem S1x1024x33 .bf16) (harg4 : arg4.IsWhole) (arg5 : Memref sig .tc .vmem S1x2048x32 .f32) (harg5 : arg5.IsWhole) (arg6 : Memref sig .tc .vmem S2048x33 .f32) (harg6 : arg6.IsWhole) (hc0 : cond0_0 i) (hc1 : ¬cond0_1 i)
    (x0 : Vec F S1x2048x32 .bf16) (x1 : Vec F S1x1024x32 .bf16) (x2 : Vec F S1x1024x33 .bf16) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x33) hz2, View.readCov_unit_zero (S := S2048x33) _ hz2]
  simp only [View.readAt_eq_ld, harg2.read_unread, harg3.read_unread, harg4.read_unread, harg6.read_unread, View.ld_unit_zero (S := S1x2048x32) hz3,
    View.ld_unit_zero (S := S1x1024x32) hz3, View.ld_unit_zero (S := S1x1024x33) hz3, View.ld_unit_zero (S := S2048x33) hz2]

/-- At 0 < k < 7 the accumulator is left at what the point before left plus the point's product. -/
theorem scratch_middle (c : Dev nD) (i : grid0.Coords) (arg2 : Memref sig .tc .vmem S1x2048x32 .bf16) (harg2 : arg2.IsWhole) (arg3 : Memref sig .tc .vmem S1x1024x32 .bf16) (harg3 : arg3.IsWhole) (arg4 : Memref sig .tc .vmem S1x1024x33 .bf16) (harg4 : arg4.IsWhole) (arg5 : Memref sig .tc .vmem S1x2048x32 .f32) (harg5 : arg5.IsWhole) (arg6 : Memref sig .tc .vmem S2048x33 .f32) (harg6 : arg6.IsWhole) (hc0 : ¬cond0_0 i) (hc1 : ¬cond0_1 i)
    (x0 : Vec F S1x2048x32 .bf16) (x1 : Vec F S1x1024x32 .bf16) (x2 : Vec F S1x1024x33 .bf16) (xs0 : Vec F S2048x33 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S2048x33) hz2]
  simp only [View.readAt_eq_ld, harg2.read_unread, harg3.read_unread, harg4.read_unread, harg6.read_unread, View.ld_unit_zero (S := S1x2048x32) hz3,
    View.ld_unit_zero (S := S1x1024x32) hz3, View.ld_unit_zero (S := S1x1024x33) hz3, View.ld_unit_zero (S := S2048x33) hz2]

/-- At k = 7 likewise; -/
theorem scratch_last (c : Dev nD) (i : grid0.Coords) (arg2 : Memref sig .tc .vmem S1x2048x32 .bf16) (harg2 : arg2.IsWhole) (arg3 : Memref sig .tc .vmem S1x1024x32 .bf16) (harg3 : arg3.IsWhole) (arg4 : Memref sig .tc .vmem S1x1024x33 .bf16) (harg4 : arg4.IsWhole) (arg5 : Memref sig .tc .vmem S1x2048x32 .f32) (harg5 : arg5.IsWhole) (arg6 : Memref sig .tc .vmem S2048x33 .f32) (harg6 : arg6.IsWhole) (hc0 : ¬cond0_0 i) (hc1 : cond0_1 i)
    (x0 : Vec F S1x2048x32 .bf16) (x1 : Vec F S1x1024x32 .bf16) (x2 : Vec F S1x1024x33 .bf16) (xs0 : Vec F S2048x33 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S2048x33) hz2]
  simp only [View.readAt_eq_ld, harg2.read_unread, harg3.read_unread, harg4.read_unread, harg6.read_unread, View.ld_unit_zero (S := S1x2048x32) hz3,
    View.ld_unit_zero (S := S1x1024x32) hz3, View.ld_unit_zero (S := S1x1024x33) hz3, View.ld_unit_zero (S := S2048x33) hz2]

/-- and the output block is left at the quotient of that accumulator's columns. -/
theorem block_last (c : Dev nD) (i : grid0.Coords) (arg2 : Memref sig .tc .vmem S1x2048x32 .bf16) (harg2 : arg2.IsWhole) (arg3 : Memref sig .tc .vmem S1x1024x32 .bf16) (harg3 : arg3.IsWhole) (arg4 : Memref sig .tc .vmem S1x1024x33 .bf16) (harg4 : arg4.IsWhole) (arg5 : Memref sig .tc .vmem S1x2048x32 .f32) (harg5 : arg5.IsWhole) (arg6 : Memref sig .tc .vmem S2048x33 .f32) (harg6 : arg6.IsWhole) (hc0 : ¬cond0_0 i) (hc1 : cond0_1 i)
    (x0 : Vec F S1x2048x32 .bf16) (x1 : Vec F S1x1024x32 .bf16) (x2 : Vec F S1x1024x33 .bf16) (xs0 : Vec F S2048x33 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x2048x32) hz3, View.readCov_unit_zero (S := S2048x33) _ hz2]
  simp only [View.readAt_eq_ld, harg2.read_unread, harg3.read_unread, harg4.read_unread, harg6.read_unread, View.ld_unit_zero (S := S1x2048x32) hz3,
    View.ld_unit_zero (S := S1x1024x32) hz3, View.ld_unit_zero (S := S1x1024x33) hz3, View.ld_unit_zero (S := S2048x33) hz2]

end Cert.KernelIdeal.Shift

end
-- ==== Proof.Accumulation.lean ====
/-
  The accumulator over the eight tiles, and the array the call leaves.

  Along k the accumulator holds 0 + Σ_{s ≤ k} (tile s's term): the fold of the update from the reset at k = 0. At
  k = 7 the eight tiles' sums over 1024 rows each are one sum over all 8192 reference rows, so the accumulator's
  column e holds Σ_j exp(p_n · r_j / 64) · (entry e of the weighted row j); the stored quotient of column d by column
  32 is the d-th coordinate of the n-th shifted point, by the cancellation law. The four output blocks, written back at
  k = 7 of each i, tile the result array.
-/
import proofs.«409553_j2370821947779_3_alg».proof.Proof.TileBlocks
import proofs.«409553_j2370821947779_3_alg».proof.Proof.CasePieces
import proofs.«409553_j2370821947779_3_alg».proof.Proof.Gen.KernelIdeal.Value

noncomputable section

open Idealize.ShloMosaic Idealize.ShloMosaic.TcCoe Idealize.SL.Sem Idealize.ShloMosaic.ValueIdx
open Idealize.ShloMosaic.Pipeline (Dat)
open scoped BigOperators

namespace Cert.KernelIdeal.Shift

open Cert.KernelIdeal Cert.KernelIdeal.Gen MeanShift

/-! ## Eight tiles of 1024 rows are the 8192 rows -/

theorem sum_tiles (q : ℕ) (f : Fin 8192 → ℝ) :
    ∑ s ∈ Finset.range 8, ∑ j' : Fin 1024, f (tileRow (8 * q + s) j') = ∑ j : Fin 8192, f j := by
  rw [Finset.sum_range (fun s => ∑ j' : Fin 1024, f (tileRow (8 * q + s) j'))]
  rw [← Equiv.sum_comp (finProdFinEquiv : Fin 8 × Fin 1024 ≃ Fin 8192) f, Fintype.sum_prod_type]
  refine Finset.sum_congr rfl fun s _ => Finset.sum_congr rfl fun j' _ => congrArg f (Fin.ext ?_)
  rw [tileRow_val]
  show 1024 * ((8 * q + s.val) % 8) + j'.val = j'.val + 1024 * s.val
  have := s.isLt
  omega

variable (m : (ℓ : Loc nD τ sig) → Buf (Elt Ideal) ℓ) (ρ : Dev nD → PrngReg)

/-! ## The accumulator after each point -/

/-- What point n adds to the accumulator, as a function of every natural (zero past the grid). -/
def pointTerm (c : Dev nD) (n : ℕ) : S2048x33.Idx → EReal := fun y =>
  if h : n < cfg0.N then
    tileTerm (iblk m c 0 ⟨n, h⟩ : FVec Ideal S1x2048x32 .bf16) (iblk m c 1 ⟨n, h⟩ : FVec Ideal S1x1024x32 .bf16)
      (iblk m c 2 ⟨n, h⟩ : FVec Ideal S1x1024x33 .bf16) ⟨(y 0).val, (y 0).isLt⟩ ⟨(y 1).val, (y 1).isLt⟩
  else 0

theorem pointTerm_ix2 (c : Dev nD) (n : ℕ) (h : n < cfg0.N) (a : Fin 2048) (b : Fin 33) :
    pointTerm m c n (ix2 a b)
      = tileTerm (iblk m c 0 ⟨n, h⟩ : FVec Ideal S1x2048x32 .bf16) (iblk m c 1 ⟨n, h⟩ : FVec Ideal S1x1024x32 .bf16)
          (iblk m c 2 ⟨n, h⟩ : FVec Ideal S1x1024x33 .bf16) a b := by
  unfold pointTerm
  rw [dif_pos h]

/-- After point t the accumulator holds the zero block plus the terms of the points since the last reset. -/
theorem scratch_eq (c : Dev nD) (t : Fin cfg0.N) (y : S2048x33.Idx) :
    (outsAt0 m c t.val t.isLt).2 y
      = k0_pay1 (F := Ideal) y + ∑ s ∈ Finset.range (t.val % 8 + 1), pointTerm m c (8 * (t.val / 8) + s) y := by
  have hN : cfg0.N = 32 := N_0
  rw [Value.soutsAt0_0_eq m c t]
  refine Pipeline.accAt_add_apply (fun n h => Value.scAt0_0 m c n h (VS0_0.read (Elt Ideal) VS0_0.junk)) (Value.scAt0_0 m c)
    (k0_pay1 (F := Ideal)) (pointTerm m c) (8 * (t.val / 8)) 7 ?_ ?_ (t.val % 8) (by omega) _ y
  · intro h i
    obtain ⟨a, b, rfl⟩ : ∃ (a : Fin 2048) (b : Fin 33), i = ix2 a b := ⟨i 0, i 1, eq_ix2 i⟩
    have h0 : (8 * (t.val / 8)) % 8 = 0 := by omega
    have h1 : ¬(8 * (t.val / 8)) % 8 = 7 := by omega
    unfold Value.scAt0_0
    rw [dif_pos h0, dif_neg h1, scratch_first, update_apply, pointTerm_ix2 m c _ h]
  · intro n h acc i hlo hhi
    obtain ⟨a, b, rfl⟩ : ∃ (a : Fin 2048) (b : Fin 33), i = ix2 a b := ⟨i 0, i 1, eq_ix2 i⟩
    have h0 : ¬n % 8 = 0 := by omega
    unfold Value.scAt0_0
    by_cases h1 : n % 8 = 7
    · rw [dif_neg h0, dif_pos h1, scratch_last, update_apply, pointTerm_ix2 m c _ h]
    · rw [dif_neg h0, dif_neg h1, scratch_middle, update_apply, pointTerm_ix2 m c _ h]

/-! ## On arguments that are tables of reals -/

section Real
variable (c : Dev nD) (p r : Rows)

/-- After the last tile the accumulator's entry (ρ', e) is the sum over ALL reference rows. -/
theorem accumulated (hp : m ((c : Thread nD τ).loc main_arg0) = lift p)
    (hr : m ((c : Thread nD τ).loc main_arg1) = lift r) (t : Fin cfg0.N) (h7 : t.val % 8 = 7) (ρ' : Fin 2048) (e : Fin 33) :
    (outsAt0 m c t.val t.isLt).2 (ix2 ρ' e)
      = ((∑ j : Fin 8192, cross p r (queryRow t.val ρ') j * augmented r j e : ℝ) : EReal) := by
  have hN : t.val < 32 := lt_of_lt_of_eq t.isLt (show cfg0.N = 32 from N_0)
  rw [scratch_eq m c t (ix2 ρ' e), reset_apply, zero_add, h7]
  have hterm : ∀ s ∈ Finset.range (7 + 1), pointTerm m c (8 * (t.val / 8) + s) (ix2 ρ' e)
      = ((addend p r (8 * (t.val / 8) + s) ρ' e : ℝ) : EReal) := by
    intro s hs
    have hs' : s < 8 := Finset.mem_range.mp hs
    have hN32 : cfg0.N = 32 := N_0
    have hlt : 8 * (t.val / 8) + s < cfg0.N := by omega
    rw [pointTerm_ix2 m c _ hlt]
    exact tileTerm_real m c p r hp hr ⟨_, hlt⟩ ρ' e
  rw [Finset.sum_congr rfl hterm, ← coe_sum]
  congr 1
  have hq : ∀ s ∈ Finset.range (7 + 1), addend p r (8 * (t.val / 8) + s) ρ' e
      = ∑ j' : Fin 1024, cross p r (queryRow t.val ρ') (tileRow (8 * (t.val / 8) + s) j')
          * augmented r (tileRow (8 * (t.val / 8) + s) j') e := by
    intro s hs
    have hs' : s < 8 := Finset.mem_range.mp hs
    unfold addend
    have hrow : queryRow (8 * (t.val / 8) + s) ρ' = queryRow t.val ρ' := by
      apply Fin.ext
      show (2048 * ((8 * (t.val / 8) + s) / 8) + ρ'.val) % 8192 = (2048 * (t.val / 8) + ρ'.val) % 8192
      have : (8 * (t.val / 8) + s) / 8 = t.val / 8 := by omega
      rw [this]
    rw [hrow]
  rw [Finset.sum_congr rfl hq]
  exact sum_tiles (t.val / 8) (fun j => cross p r (queryRow t.val ρ') j * augmented r j e)

/-- The last point's output block, at (0, ρ', d), is the d-th coordinate of the shifted point of query row
    2048 (t / 8) + ρ'. -/
theorem block_entry (hp : m ((c : Thread nD τ).loc main_arg0) = lift p)
    (hr : m ((c : Thread nD τ).loc main_arg1) = lift r) (t : Fin cfg0.N) (h7 : t.val % 8 = 7) (ρ' : Fin 2048) (d : Fin 32) :
    k0_pay3 (F := Ideal) ((outsAt0 m c t.val t.isLt).2) (ix3 (0 : Fin 1) ρ' d)
      = ((shift p r (queryRow t.val ρ') d : ℝ) : EReal) := by
  rw [quotient_apply, accumulated m c p r hp hr t h7, accumulated m c p r hp hr t h7]
  have hden : (∑ j : Fin 8192, cross p r (queryRow t.val ρ') j * augmented r j (⟨32, by decide⟩ : Fin 33))
      = ∑ j : Fin 8192, cross p r (queryRow t.val ρ') j * rowWeight r j :=
    Finset.sum_congr rfl fun j _ => by unfold augmented; rw [dif_neg (by decide)]
  have hnum : (∑ j : Fin 8192, cross p r (queryRow t.val ρ') j * augmented r j (⟨d.val, by omega⟩ : Fin 33))
      = ∑ j : Fin 8192, cross p r (queryRow t.val ρ') j * (r j d * rowWeight r j) :=
    Finset.sum_congr rfl fun j _ => by unfold augmented; rw [dif_pos (show d.val < 32 from d.isLt)]
  rw [hden, hnum, div_coe_coe _ _ (sum_cross_pos p r _).ne', shift_eq_prescaled]

/-- The same at any index of the block: entry y is the result array's at row 2048 (t / 8) + y₁, column y₂. -/
theorem block_value (hp : m ((c : Thread nD τ).loc main_arg0) = lift p)
    (hr : m ((c : Thread nD τ).loc main_arg1) = lift r) (t : Fin cfg0.N) (h7 : t.val % 8 = 7) (y : S1x2048x32.Idx) :
    k0_pay3 (F := Ideal) ((outsAt0 m c t.val t.isLt).2) y
      = result p r (ix3 (0 : Fin 1) (queryRow t.val ⟨(y 1).val, (y 1).isLt⟩) (⟨(y 2).val, (y 2).isLt⟩ : Fin 32)) := by
  obtain ⟨u, a, b, rfl⟩ : ∃ (u : Fin 1) (a : Fin 2048) (b : Fin 32), y = ix3 u a b := ⟨y 0, y 1, y 2, eq_ix3 y⟩
  obtain rfl : u = 0 := Subsingleton.elim _ _
  rw [block_entry m c p r hp hr t h7]
  rfl

/-- An index of the result array is in point t's output block iff each coordinate is in the block's range. -/
theorem mem_block (t : Fin cfg0.N) (i : S1x8192x32.Idx) :
    i ∈ ((cfg0.win 3).blk t).view.set ↔ ∀ a : Fin 3, win0_3.index t a * S1x2048x32.size a ≤ (i a).val
      ∧ (i a).val < win0_3.index t a * S1x2048x32.size a + S1x2048x32.size a := by
  show i ∈ ((View.whole main_v14).slice (win0_3.rect t)).set ↔ _
  rw [View.set_slice_whole, Rect.mem_set_unit]
  exact Iff.rfl

/-- What the write-back at a point with k = 7 writes is the result array's block. -/
theorem flushed_eq (hp : m ((c : Thread nD τ).loc main_arg0) = lift p)
    (hr : m ((c : Thread nD τ).loc main_arg1) = lift r) (t : Fin cfg0.N) (hf : (cfg0.win 3).flush t = true) :
    (dats m 0 c).flushed 3 t = ((cfg0.win 3).blk t).view.read (Elt Ideal) (result p r) := by
  have hN : t.val < 32 := lt_of_lt_of_eq t.isLt (show cfg0.N = 32 from N_0)
  have h7 : t.val % 8 = 7 := (flush0_3 t).mp hf
  have h0 : ¬t.val % 8 = 0 := by omega
  obtain ⟨-, -, -, -, -, -, -, -, -, e0, e1, e2⟩ := index_facts t
  have hacc : out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
        (iblk m c 0 t) (iblk m c 1 t) (iblk m c 2 t) (outsAt0 m c (t.val - 1) (Nat.lt_of_le_of_lt (Nat.sub_le _ _) t.isLt)).2
      = k0_pay3 (F := Ideal) ((outsAt0 m c t.val t.isLt).2) := by
    rw [block_last, outsAt0_C m c t h0 h7]
    dsimp only
    rw [scratch_last]
  rw [Value.flushed3_C m c t h0 h7, hacc]
  funext y
  rw [View.read_apply]
  refine (block_value m c p r hp hr t h7 y).trans (congrArg (result p r) ?_)
  funext a
  apply Fin.ext
  match a with
  | ⟨0, _⟩ =>
    show 0 = win0_3.index t (0 : Fin 3) * 1 + 1 * (y 0).val
    have : (y 0).val < 1 := (y 0).isLt
    rw [e0]; omega
  | ⟨1, _⟩ =>
    show (queryRow t.val ⟨(y 1).val, (y 1).isLt⟩).val = win0_3.index t (1 : Fin 3) * 2048 + 1 * (y 1).val
    rw [queryRow_val _ hN, e1]
    show 2048 * (t.val / 8) + (y 1).val = t.val / 8 * 2048 + 1 * (y 1).val
    omega
  | ⟨2, _⟩ =>
    show (y 2).val = win0_3.index t (2 : Fin 3) * 32 + 1 * (y 2).val
    rw [e2]; omega

/-- Every index of the result array is in the block some point with k = 7 writes back. -/
theorem cover (i : S1x8192x32.Idx) : ∃ t : Fin cfg0.N, (cfg0.win 3).flush t = true ∧ i ∈ ((cfg0.win 3).blk t).view.set := by
  have hN32 : cfg0.N = 32 := N_0
  have hi0 : (i 0).val < 1 := (i 0).isLt
  have hi1 : (i 1).val < 8192 := (i 1).isLt
  have hi2 : (i 2).val < 32 := (i 2).isLt
  refine ⟨⟨8 * ((i 1).val / 2048) + 7, by omega⟩, (flush0_3 _).mpr (by show (8 * ((i 1).val / 2048) + 7) % 8 = 7; omega), ?_⟩
  obtain ⟨-, -, -, -, -, -, -, -, -, e0, e1, e2⟩ := index_facts ⟨8 * ((i 1).val / 2048) + 7, by omega⟩
  rw [mem_block]
  intro a
  match a with
  | ⟨0, _⟩ =>
    show win0_3.index _ (0 : Fin 3) * 1 ≤ (i 0).val ∧ (i 0).val < win0_3.index _ (0 : Fin 3) * 1 + 1
    rw [e0]; omega
  | ⟨1, _⟩ =>
    show win0_3.index _ (1 : Fin 3) * 2048 ≤ (i 1).val ∧ (i 1).val < win0_3.index _ (1 : Fin 3) * 2048 + 2048
    rw [e1]
    show (8 * ((i 1).val / 2048) + 7) / 8 * 2048 ≤ (i 1).val ∧ (i 1).val < (8 * ((i 1).val / 2048) + 7) / 8 * 2048 + 2048
    omega
  | ⟨2, _⟩ =>
    show win0_3.index _ (2 : Fin 3) * 32 ≤ (i 2).val ∧ (i 2).val < win0_3.index _ (2 : Fin 3) * 32 + 32
    rw [e2]; omega

/-- THE ARRAY the call leaves: the array of shifted points. -/
theorem final (hp : m ((c : Thread nD τ).loc main_arg0) = lift p)
    (hr : m ((c : Thread nD τ).loc main_arg1) = lift r) : (dats m 0 c).arrAt 3 cfg0.N = result p r :=
  (dats m 0 c).arrAt_eq_of_cover 3 (result p r) (flushed_eq m c p r hp hr) cover

end Real

/-- The kernel's run on arguments that are tables of reals: the result array ends at the array of shifted points,
    the arguments unchanged. -/
theorem run (p r : Dev nD → Rows) (hp : ∀ c : Dev nD, m ((c : Thread nD τ).loc main_arg0) = lift (p c))
    (hr : ∀ c : Dev nD, m ((c : Thread nD τ).loc main_arg1) = lift (r c)) :
    θ_run defs (onTc (τ := τ) (main (F := Ideal))) ⟨m, fun _ => 0, ρ⟩ fun st => ∀ c : Dev nD,
      st.2.mem ((c : Thread nD τ).loc main_v14) = result (p c) (r c)
      ∧ st.2.mem ((c : Thread nD τ).loc main_arg0) = m ((c : Thread nD τ).loc main_arg0)
      ∧ st.2.mem ((c : Thread nD τ).loc main_arg1) = m ((c : Thread nD τ).loc main_arg1) :=
  (θ_run defs _ _).mono (fun st h c => ⟨(h c).1.trans (final m c (p c) (r c) (hp c) (hr c)), (h c).2⟩)
    (Value.run_blocks m ρ)

end Cert.KernelIdeal.Shift

end
-- ==== Proof.ReferenceShift.lean ====
/-
  The reference's result array is the mean-shift step's.
-/
import proofs.«409553_j2370821947779_3_alg».proof.Proof.ShiftArray
import proofs.«409553_j2370821947779_3_alg».proof.Proof.Gen.ReferenceIdeal.Read

noncomputable section

namespace Cert.ReferenceIdeal.Shift

open Idealize.ShloMosaic Cert.ReferenceIdeal.Read
open scoped BigOperators

/-- The squared lengths of the query rows: 0 + Σ_e a[n,e]² over a table of reals is the real squared length. -/
private theorem sqP (a : MeanShift.Rows) (i : S1x8192.Idx) :
    val_main_v1 (F := Ideal) (MeanShift.lift a) i
      = ((MeanShift.sq a ⟨(i 1).val, (i 1).isLt⟩ : ℝ) : EReal) := by
  rw [val_main_v1_apply, val_main_cst_apply, Ideal.ofBits_def, MeanShift.word_zero, EReal.coe_zero, zero_add]
  unfold MeanShift.sq
  rw [MeanShift.coe_sum]
  refine Finset.sum_congr rfl fun k _ => ?_
  rw [val_main_v0_apply, Ideal.mulf_def, MeanShift.lift_apply, EReal.coe_mul]

/-- The same for the reference rows. -/
private theorem sqR (a : MeanShift.Rows) (i : S1x8192.Idx) :
    val_main_v3 (F := Ideal) (MeanShift.lift a) i
      = ((MeanShift.sq a ⟨(i 1).val, (i 1).isLt⟩ : ℝ) : EReal) := by
  rw [val_main_v3_apply, val_main_cst_0_apply, Ideal.ofBits_def, MeanShift.word_zero, EReal.coe_zero, zero_add]
  unfold MeanShift.sq
  rw [MeanShift.coe_sum]
  refine Finset.sum_congr rfl fun k _ => ?_
  rw [val_main_v2_apply, Ideal.mulf_def, MeanShift.lift_apply, EReal.coe_mul]

/-- The inner products. -/
private theorem dotPR (p r : MeanShift.Rows) (i : S1x8192x8192.Idx) :
    val_main_v4 (F := Ideal) (MeanShift.lift p) (MeanShift.lift r) i
      = ((MeanShift.dot p r ⟨(i 1).val, (i 1).isLt⟩ ⟨(i 2).val, (i 2).isLt⟩ : ℝ) : EReal) := by
  rw [val_main_v4_apply]
  unfold MeanShift.dot
  rw [MeanShift.coe_sum]
  refine Finset.sum_congr rfl fun k _ => ?_
  rw [MeanShift.lift_apply, MeanShift.lift_apply, EReal.coe_mul]

/-- The Gaussian weights. -/
private theorem weightPR (p r : MeanShift.Rows) (i : S1x8192x8192.Idx) :
    val_main_v15 (F := Ideal) (MeanShift.lift p) (MeanShift.lift r) i
      = ((MeanShift.weight p r ⟨(i 1).val, (i 1).isLt⟩ ⟨(i 2).val, (i 2).isLt⟩ : ℝ) : EReal) := by
  rw [val_main_v15_apply, val_main_v14_apply, val_main_v12_apply, val_main_v9_apply, val_main_v11_apply,
    val_main_v7_apply, val_main_v5_apply, val_main_v8_apply, val_main_v6_apply, val_main_v10_apply,
    val_main_v13_apply, val_main_cst_1_apply, val_main_cst_2_apply, sqP, sqR, dotPR,
    Ideal.hostUnary_exp_def, Ideal.mulf_def, Ideal.mulf_def, Ideal.subf_def, Ideal.addf_def,
    Ideal.ofBits_def, Ideal.ofBits_def, MeanShift.word_two, MeanShift.word_negInv128,
    ← EReal.coe_add, ← EReal.coe_mul, ← EReal.coe_sub, ← EReal.coe_mul, Ideal.exp_coe]
  rfl

/-- The weighted sum of the reference rows. -/
private theorem numPR (p r : MeanShift.Rows) (i : S1x8192x32.Idx) :
    val_main_v16 (F := Ideal) (MeanShift.lift p) (MeanShift.lift r) i
      = ((∑ j : Fin 8192, MeanShift.weight p r (MeanShift.row i) j * r j (MeanShift.col i) : ℝ) : EReal) := by
  rw [val_main_v16_apply, MeanShift.coe_sum]
  refine Finset.sum_congr rfl fun k _ => ?_
  rw [weightPR, MeanShift.lift_apply, EReal.coe_mul]

/-- The sum of the weights. -/
private theorem denPR (p r : MeanShift.Rows) (i : S1x8192.Idx) :
    val_main_v17 (F := Ideal) (MeanShift.lift p) (MeanShift.lift r) i
      = ((∑ j : Fin 8192, MeanShift.weight p r ⟨(i 1).val, (i 1).isLt⟩ j : ℝ) : EReal) := by
  rw [val_main_v17_apply, val_main_cst_3_apply, Ideal.ofBits_def, MeanShift.word_zero, EReal.coe_zero, zero_add,
    MeanShift.coe_sum]
  refine Finset.sum_congr rfl fun k _ => ?_
  rw [weightPR]

/-- On arrays that hold reals, the reference's last stage is the array of shifted points. -/
theorem reference_eq (p r : MeanShift.Rows) :
    Cert.ReferenceIdeal.Read.val_main_v20 (F := Ideal) (MeanShift.lift p) (MeanShift.lift r) = MeanShift.result p r := by
  funext i
  rw [val_main_v20_apply, val_main_v19_apply, val_main_v18_apply, numPR, denPR, Ideal.hostDivf_def,
    MeanShift.div_coe_coe _ _ (MeanShift.sum_weight_pos p r _).ne']
  rfl

end Cert.ReferenceIdeal.Shift

end
-- ==== Proof.FiniteRows.lean ====
/-
  An array of which the precondition holds is a table of reals.
-/
import proofs.«409553_j2370821947779_3_alg».proof.Proof.ShiftArray
import proofs.«409553_j2370821947779_3_alg».proof.Pre_finite_inputs
import Idealize.ShloMosaic.Lib.ReduceAll
import Idealize.ShloMosaic.Lib.Affine

noncomputable section

namespace MeanShift

open Idealize.ShloMosaic

/-- The scalar shape has one index. -/
private instance scalarIdxSubsingleton : Subsingleton Cert.Pre_finite_inputs.S_.Idx :=
  ⟨fun _ _ => funext fun d => d.elim0⟩

/-- The float word 0x7F800000 (sign 0, exponent all ones, fraction 0) denotes +∞. -/
private theorem word_inf : Ideal.ofBits .f32 0x7F800000#32 = (⊤ : EReal) := by
  simp [Ideal.ofBits, Ideal.ieee]

/-- An extended real whose absolute value max x (-x) compares below +∞ is the image of a real:
    at -∞ and at +∞ the absolute value is +∞, which is not below itself. -/
private theorem coe_toReal_of_abs_lt_top (x : EReal)
    (hx : Ideal.cmp .olt (max x (-x)) (⊤ : EReal) = 1#1) : ((x.toReal : ℝ) : EReal) = x := by
  induction x using EReal.rec with
  | bot => simp [Ideal.cmp] at hx
  | coe r => rfl
  | top => simp [Ideal.cmp] at hx

/-- One array: if the conjunction over all entries of |X| < +∞ is true, X is a table of reals,
    the table of the real parts of its entries. -/
private theorem rows_of_all_finite [Cert.Pre_finite_inputs.Facts] (X : Arr.Idx → EReal)
    (hX : Host.reduce IntOp.andi
        (cmpf .olt (Host.absf (F := Ideal) (s := Cert.Pre_finite_inputs.S1x8192x32) (φ := .f32) X)
          (broadcastInDim Cert.Pre_finite_inputs.S1x8192x32 ![] Cert.Pre_finite_inputs.Facts.bcast_S_S1x8192x32
            (constant (F := Ideal) Cert.Pre_finite_inputs.S_ .f32 0x7F800000#32)))
        (constantI Cert.Pre_finite_inputs.S_ 1 1#1)
        Cert.Pre_finite_inputs.Facts.reducesTo_S1x8192x32_S_d0_1_2 Cert.Pre_finite_inputs.Facts.h_S_
        ValueIdx.ix0 = 1#1) :
    ∃ p : Rows, X = lift p := by
  refine ⟨fun n e => (X (ValueIdx.ix3 (0 : Fin 1) n e)).toReal, funext fun i => ?_⟩
  have hi := Host.reduce_andi_all _ _ _ _ _ hX i
  have hi' : Ideal.cmp .olt (max (X i) (-(X i))) (⊤ : EReal) = 1#1 := by
    rw [← word_inf]; exact hi
  rw [lift_apply]
  have hidx : ValueIdx.ix3 (0 : Fin 1) (row i) (col i) = i := by
    funext a
    match a with
    | ⟨0, _⟩ => exact (Fin.ext (Nat.lt_one_iff.1 (i 0).isLt)).symm
    | ⟨1, _⟩ => rfl
    | ⟨2, _⟩ => rfl
  rw [hidx]
  exact (coe_toReal_of_abs_lt_top (X i) hi').symm

/-- If every entry of both arrays is smaller than +∞ in absolute value, both arrays are tables of reals. -/
theorem rows_of_finite [Cert.Pre_finite_inputs.Facts] (A B : Arr.Idx → EReal)
    (h : Cert.Pre_finite_inputs.fn (F := Ideal) A B = fun _ => 1#1) :
    (∃ p : Rows, A = lift p) ∧ (∃ r : Rows, B = lift r) := by
  have h0 := congrFun h ValueIdx.ix0
  dsimp only [Cert.Pre_finite_inputs.fn] at h0
  obtain ⟨hA, hB⟩ := IntOp.andi_eq_one.1 h0
  exact ⟨rows_of_all_finite A hA, rows_of_all_finite B hB⟩

end MeanShift

end
-- ==== Proof.lean ====
/-
  One mean-shift step, kernel against reference.

  For 8192 query points p_n and 8192 reference points r_j in ℝ³², with Gaussian weights of bandwidth 8, the step
  replaces each query point by the weighted mean of the reference points,

      out[n] = Σ_j k_nj · r_j / Σ_j k_nj,      k_nj = exp(-(|p_n|² + |r_j|² - 2 p_n·r_j) / 128).

  The reference program computes exactly this. The kernel never forms |p_n|²: it scales the queries by 1/64, weights
  each reference row beforehand by w_j = exp(-|r_j|²/128) (appending w_j itself as a 33rd column), and accumulates,
  over eight tiles of 1024 reference rows, the products exp(p_n·r_j/64) · (w_j r_j | w_j); the last tile's step divides
  the first 32 columns by the 33rd. Since k_nj = exp(-|p_n|²/128) · w_j · exp(p_n·r_j/64) and the first factor is a
  positive real that does not depend on j, it cancels in the quotient: the two programs compute the same numbers.

  The cancellation needs the factor to be a nonzero real, so it needs the inputs finite: that is where the
  precondition is used (an array of which it holds is a table of reals). On tables of reals every intermediate value
  of both programs is a real, the sums are finite sums of reals, the four float words the programs spell (0, 2,
  1/64, -1/128) are exact, and the changes of float format are the identity; the equation between the two quotients is
  then the real-number law of the module GaussianWeights.

  Modules: GaussianWeights (the law over ℝ), ShiftArray (the result as an array of extended reals), FiniteRows (the
  precondition gives tables of reals), ReferenceShift (the reference's last stage is the result), CasePieces and
  TileProduct (what one grid point leaves, as a value at an index), StagedArrays and TileBlocks (the staged arrays and
  their blocks), Accumulation (the fold over the eight tiles, the quotient, the four output blocks tiling the array).
  The kernel's idealization rewrote nothing, so that conjunct is trivial; the three runs without fault are the
  generated frames and the reference's generated run.
-/
import proofs.«409553_j2370821947779_3_alg».proof.Defs
import proofs.«409553_j2370821947779_3_alg».proof.Proof.Gen.Kernel
import proofs.«409553_j2370821947779_3_alg».proof.Proof.Gen.Kernel.Skeleton
import proofs.«409553_j2370821947779_3_alg».proof.Proof.Gen.Kernel.Launch
import proofs.«409553_j2370821947779_3_alg».proof.Proof.Gen.Kernel.Points
import proofs.«409553_j2370821947779_3_alg».proof.Proof.Gen.Kernel.Frame
import proofs.«409553_j2370821947779_3_alg».proof.Proof.Gen.KernelIdeal
import proofs.«409553_j2370821947779_3_alg».proof.Proof.Gen.KernelIdeal.Skeleton
import proofs.«409553_j2370821947779_3_alg».proof.Proof.Gen.KernelIdeal.Launch
import proofs.«409553_j2370821947779_3_alg».proof.Proof.Gen.KernelIdeal.Points
import proofs.«409553_j2370821947779_3_alg».proof.Proof.Gen.KernelIdeal.Frame
import proofs.«409553_j2370821947779_3_alg».proof.Proof.Gen.KernelIdeal.Value
import proofs.«409553_j2370821947779_3_alg».proof.Proof.Gen.ReferenceIdeal
import proofs.«409553_j2370821947779_3_alg».proof.Proof.Gen.ReferenceIdeal.Run
import proofs.«409553_j2370821947779_3_alg».proof.Proof.Gen.ReferenceIdeal.Read
import proofs.«409553_j2370821947779_3_alg».proof.Proof.Gen.Pre_finite_inputs
import proofs.«409553_j2370821947779_3_alg».proof.Proof.Accumulation
import proofs.«409553_j2370821947779_3_alg».proof.Proof.ReferenceShift
import proofs.«409553_j2370821947779_3_alg».proof.Proof.FiniteRows
import Idealize.ShloMosaic.Adequacy
import Idealize.ShloMosaic.Init

noncomputable section

namespace Cert.Proof

open Idealize.ShloMosaic Idealize.SL.Sem

/-- The three programs run without fault and leave their arguments as they were. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- On finite inputs both programs end with the array of shifted points: the kernel's accumulated quotient
    (Accumulation) and the reference's last stage (ReferenceShift) are both the result over the tables of reals
    the inputs are (FiniteRows). -/
theorem algebraic : Cert.algebraic_KernelIdeal_ReferenceIdeal := by
  intro m ρ m' ρ' hpre hagree
  have hP : ∀ c : Dev Cert.KernelIdeal.nD, ∃ p : MeanShift.Rows,
      m ((c.tc : Thread Cert.KernelIdeal.nD Cert.KernelIdeal.τ).loc Cert.KernelIdeal.main_arg0) = MeanShift.lift p :=
    fun c => (MeanShift.rows_of_finite _ _ (hpre c)).1
  have hR : ∀ c : Dev Cert.KernelIdeal.nD, ∃ r : MeanShift.Rows,
      m ((c.tc : Thread Cert.KernelIdeal.nD Cert.KernelIdeal.τ).loc Cert.KernelIdeal.main_arg1) = MeanShift.lift r :=
    fun c => (MeanShift.rows_of_finite _ _ (hpre c)).2
  obtain ⟨p, hp⟩ := Classical.axiomOfChoice hP
  obtain ⟨r, hr⟩ := Classical.axiomOfChoice hR
  refine ⟨fun c => MeanShift.result (p c) (r c), Cert.KernelIdeal.Shift.run m ρ p r hp hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, hp c, hr c]
  exact (Cert.ReferenceIdeal.Read.val_main_v20_eq _ _).trans (Cert.ReferenceIdeal.Shift.reference_eq (p c) (r c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
